-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192x64x64 : Shape := ⟨3, ![8192, 64, 64]⟩
abbrev S256x64x64 : Shape := ⟨3, ![256, 64, 64]⟩

abbrev nBuf : Space → Nat
  | .hbm => 4
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x64x64, .f32⟩
  | .hbm, ⟨2, _⟩ => ⟨S8192x64x64, .f32⟩
  | .hbm, ⟨3, _⟩ => ⟨S8192x4096, .f32⟩
  | .local _ .vmem, ⟨0, _⟩ => ⟨S256x64x64, .f32⟩
  | .local _ .vmem, ⟨1, _⟩ => ⟨S256x64x64, .f32⟩
  | .local _ .vmem, ⟨2, _⟩ => ⟨S256x64x64, .f32⟩
  | .local _ .vmem, ⟨3, _⟩ => ⟨S256x64x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8192x4096_S8192x64x64 : S8192x4096.ShapeCasts S8192x64x64
  shapeCasts_S8192x64x64_S8192x4096 : S8192x64x64.ShapeCasts S8192x4096
  inb_S256x64x64_S256x64x64_0_0_0 : ∀ a, (![0, 0, 0] : Fin 3 → Nat) a + S256x64x64.size a ≤ S256x64x64.size a
  h_S256x64x64 : 0 < S256x64x64.numel
  shapeCasts_S256x64x64_S256x64x64 : S256x64x64.ShapeCasts S256x64x64
  dot_S256x64x64_S256x64x64_S256x64x64_2_1_1_2_0_0_wf : DotDims.WF S256x64x64 S256x64x64 S256x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x64.size a ≤ S8192x64x64.size a
  hwx0_0 : ∀ i : grid0.Coords, EltTy.bits .f32 = 32 ∨ (Rect.block (s := S8192x64x64) S256x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64x64.size a ≤ S8192x64x64.size a
  hwx0_1 : ∀ i : grid0.Coords, EltTy.bits .f32 = 32 ∨ (Rect.block (s := S8192x64x64) S256x64x64.size (cc0_transform_1 i) (hinb0_1 i)).WholeWords (EltTy.packing .f32)

variable [Facts₀]

def dot_S256x64x64_S256x64x64_S256x64x64_2_1_1_2_0_0 : DotDims S256x64x64 S256x64x64 S256x64x64 where
  lhsContracting := [2]
  rhsContracting := [1]
  lhsNonContracting := [1]
  rhsNonContracting := [2]
  lhsBatch := [0]
  rhsBatch := [0]
  wf := dot_S256x64x64_S256x64x64_S256x64x64_2_1_1_2_0_0_wf

abbrev win0_0 : Pipeline.Window sig grid0 :=
  Pipeline.Window.ofSpec (Memref.whole main_call0_v0) S256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S256x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x64x64 : Shape := ⟨3, ![8192, 64, 64]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x64x64, .f32⟩
  | .hbm, ⟨2, _⟩ => ⟨S8192x64x64, .f32⟩
  | .hbm, ⟨3, _⟩ => ⟨S_, .f32⟩
  | .hbm, ⟨4, _⟩ => ⟨S8192x64x64, .f32⟩
  | .hbm, ⟨5, _⟩ => ⟨S8192x64x64, .f32⟩
  | .hbm, ⟨6, _⟩ => ⟨S8192x64x64, .f32⟩
  | .hbm, ⟨7, _⟩ => ⟨S8192x64x64, .f32⟩
  | .hbm, ⟨8, _⟩ => ⟨S_, .f32⟩
  | .hbm, ⟨9, _⟩ => ⟨S8192x64x64, .f32⟩
  | .hbm, ⟨10, _⟩ => ⟨S8192x64x64, .f32⟩
  | .hbm, ⟨11, _⟩ => ⟨S8192x64x64, .f32⟩
  | .hbm, ⟨12, _⟩ => ⟨S8192x64x64, .f32⟩
  | .hbm, ⟨13, _⟩ => ⟨S_, .f32⟩
  | .hbm, ⟨14, _⟩ => ⟨S8192x64x64, .f32⟩
  | .hbm, ⟨15, _⟩ => ⟨S8192x64x64, .f32⟩
  | .hbm, ⟨16, _⟩ => ⟨S8192x64x64, .f32⟩
  | .hbm, ⟨17, _⟩ => ⟨S8192x64x64, .f32⟩
  | .hbm, ⟨18, _⟩ => ⟨S_, .f32⟩
  | .hbm, ⟨19, _⟩ => ⟨S8192x64x64, .f32⟩
  | .hbm, ⟨20, _⟩ => ⟨S8192x64x64, .f32⟩
  | .hbm, ⟨21, _⟩ => ⟨S8192x64x64, .f32⟩
  | .hbm, ⟨22, _⟩ => ⟨S8192x64x64, .f32⟩
  | .hbm, ⟨23, _⟩ => ⟨S_, .f32⟩
  | .hbm, ⟨24, _⟩ => ⟨S8192x64x64, .f32⟩
  | .hbm, ⟨25, _⟩ => ⟨S8192x64x64, .f32⟩
  | .hbm, ⟨26, _⟩ => ⟨S8192x64x64, .f32⟩
  | .hbm, ⟨27, _⟩ => ⟨S8192x64x64, .f32⟩
  | .hbm, ⟨28, _⟩ => ⟨S_, .f32⟩
  | .hbm, ⟨29, _⟩ => ⟨S8192x64x64, .f32⟩
  | .hbm, ⟨30, _⟩ => ⟨S8192x64x64, .f32⟩
  | .hbm, ⟨31, _⟩ => ⟨S8192x64x64, .f32⟩
  | .hbm, ⟨32, _⟩ => ⟨S_, .f32⟩
  | .hbm, ⟨33, _⟩ => ⟨S8192x64x64, .f32⟩
  | .hbm, ⟨34, _⟩ => ⟨S8192x64x64, .f32⟩
  | .hbm, ⟨35, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_5 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  shapeCasts_S8192x4096_S8192x64x64 : S8192x4096.ShapeCasts S8192x64x64
  bcast_S_S8192x64x64 : S_.BroadcastsInDim S8192x64x64 (![] : Fin 0 → Fin S8192x64x64.rank)
  shapeCasts_S8192x64x64_S8192x4096 : S8192x64x64.ShapeCasts S8192x4096
  dot_S8192x64x64_S8192x64x64_S8192x64x64_2_1_1_2_0_0_wf : DotDims.WF S8192x64x64 S8192x64x64 S8192x64x64 [2] [1] [1] [2] [0] [0]

variable [Facts₀]

def dot_S8192x64x64_S8192x64x64_S8192x64x64_2_1_1_2_0_0 : DotDims S8192x64x64 S8192x64x64 S8192x64x64 where
  lhsContracting := [2]
  rhsContracting := [1]
  lhsNonContracting := [1]
  rhsNonContracting := [2]
  lhsBatch := [0]
  rhsBatch := [0]
  wf := dot_S8192x64x64_S8192x64x64_S8192x64x64_2_1_1_2_0_0_wf

class Facts : Prop extends Facts₀ where

variable [Facts]
-- ==== Proof.Series.lean ====
/-
  The function both programs compute, stated once and without either program.

  The input is a batch of 8192 matrices of size 64×64. For ONE matrix X over the extended reals the result is the
  seven-term series
      (X + P₁ + P₂ + P₃ + P₄ + P₅ + P₆) / c₇,   P₁ = (X·X) / c₁,   Pₖ₊₁ = (Pₖ·X) / cₖ₊₁,
  the sum nested to the left as written, every product the ordinary matrix product (entry (i, k) the sum over j of
  the entries (i, j)·(j, k)), every quotient entrywise by one constant. The seven constants are float literals and
  are kept as their binary words: both programs carry the same words, so their values are never needed.

  The batch never mixes: entry b of the result depends on entry b of the input only. That is the whole reason a
  tiling of the batch axis computes the same array, and it is why the series is stated for one matrix and then
  applied entry by entry (`G`).
-/
import Idealize.ShloMosaic.PureOps.Ideal
import Idealize.ShloMosaic.Lib.ValueIdx

noncomputable section

open scoped BigOperators

namespace Cert.PowerSeries

open Idealize.ShloMosaic Idealize.ShloMosaic.ValueIdx

/-- One 64×64 matrix over the extended reals, by row and column. -/
abbrev Mat : Type := Fin 64 → Fin 64 → EReal

/-- The matrix product: entry (i, k) is the sum over j of A(i, j) · B(j, k). -/
def mmul (A B : Mat) : Mat := fun i k => ∑ j : Fin 64, A i j * B j k

/-- The entrywise quotient by one constant. -/
def mdiv (A : Mat) (c : EReal) : Mat := fun i k => Ideal.div (A i k) c

/-- The entrywise sum. -/
def madd (A B : Mat) : Mat := fun i k => A i k + B i k

/-- The six decay constants and the final normaliser, as the binary words both programs print. -/
def c1 : EReal := Ideal.ofBits .f32 0x41000000#32
def c2 : EReal := Ideal.ofBits .f32 0x41001FFC#32
def c3 : EReal := Ideal.ofBits .f32 0x410040CF#32
def c4 : EReal := Ideal.ofBits .f32 0x41008C00#32
def c5 : EReal := Ideal.ofBits .f32 0x4100DEE7#32
def c6 : EReal := Ideal.ofBits .f32 0x41016EBD#32
def c7 : EReal := Ideal.ofBits .f32 0x402953FD#32

/-- The terms of the series: each is the previous one times X, divided by its constant. -/
def p1 (X : Mat) : Mat := mdiv (mmul X X) c1
def p2 (X : Mat) : Mat := mdiv (mmul (p1 X) X) c2
def p3 (X : Mat) : Mat := mdiv (mmul (p2 X) X) c3
def p4 (X : Mat) : Mat := mdiv (mmul (p3 X) X) c4
def p5 (X : Mat) : Mat := mdiv (mmul (p4 X) X) c5
def p6 (X : Mat) : Mat := mdiv (mmul (p5 X) X) c6

/-- The series of one matrix: the terms summed from the left, then divided by the normaliser. -/
def series (X : Mat) : Mat :=
  mdiv (madd (madd (madd (madd (madd (madd X (p1 X)) (p2 X)) (p3 X)) (p4 X)) (p5 X)) (p6 X)) c7

/-- Entry `b` of a batch of 8192 matrices. -/
def entry (A : (⟨3, ![8192, 64, 64]⟩ : Shape).Idx → EReal) (b : Fin 8192) : Mat := fun i k => A (ix3 b i k)

/-- Entry `b` of a batch of 256 matrices (one tile of the batch axis). -/
def tileEntry (A : (⟨3, ![256, 64, 64]⟩ : Shape).Idx → EReal) (b : Fin 256) : Mat := fun i k => A (ix3 b i k)

/-- The whole result: at batch entry b, row i, column k, the series of entry b of the input, at (i, k). -/
def G (A : (⟨3, ![8192, 64, 64]⟩ : Shape).Idx → EReal) : (⟨3, ![8192, 64, 64]⟩ : Shape).Idx → EReal :=
  fun j => series (entry A (j 0)) (j 1) (j 2)

/-- `G` read at explicit coordinates. -/
theorem G_apply (A : (⟨3, ![8192, 64, 64]⟩ : Shape).Idx → EReal) (b : Fin 8192) (i k : Fin 64) :
    G A (ix3 b i k) = series (entry A b) i k := rfl

/-- An array of the batch shape is determined by its entries. -/
theorem ext_entry (A B : (⟨3, ![8192, 64, 64]⟩ : Shape).Idx → EReal) (h : ∀ b, entry A b = entry B b) : A = B := by
  funext j
  rw [eq_ix3 j]
  exact congrFun (congrFun (h (j 0)) (j 1)) (j 2)

/-- The entries of `G A` are the series of the entries of `A`. -/
theorem entry_G (A : (⟨3, ![8192, 64, 64]⟩ : Shape).Idx → EReal) (b : Fin 8192) : entry (G A) b = series (entry A b) := rfl

end Cert.PowerSeries

end
-- ==== Proof.TileValue.lean ====
/-
  What the kernel's body computes on ONE tile of the batch axis: a block of 256 matrices, held as one vector of shape
  [256, 64, 64]. Read one batch entry at a time, the body's stored value is the series of that entry
  (`Cert.PowerSeries.series`): its matrix products contract the second matrix axis of the left operand with the first
  of the right operand at EQUAL batch coordinate, so entry b of a product is the product of the entries b; its
  quotients and sums are entrywise; and its accumulator is the zero splat, which adds nothing.
-/
import proofs.«166891_j52810917872258_1_alg».proof.Proof.Gen.KernelIdeal.Skeleton
import proofs.«166891_j52810917872258_1_alg».proof.Proof.Series
import Idealize.ShloMosaic.Lib.Pipeline.Value
import Idealize.ShloMosaic.Lib.ValueIdx
import Idealize.ShloMosaic.PureOps.Ideal.Laws

noncomputable section

open scoped BigOperators

namespace Cert.KernelIdeal.TileValue

open Cert.KernelIdeal Cert.KernelIdeal.Gen Idealize.ShloMosaic Idealize.ShloMosaic.TcCoe Idealize.ShloMosaic.ValueIdx
open Cert.PowerSeries

/-! ## The operand indices of the tile's batched product -/

/-- The left operand is read at the output's batch coordinate, -/
theorem lhs_axis0 (i : S256x64x64.Idx) (q : dot_S256x64x64_S256x64x64_S256x64x64_2_1_1_2_0_0.contr.Idx) :
    (dot_S256x64x64_S256x64x64_S256x64x64_2_1_1_2_0_0.lhsIdx i q 0).val = (i 0).val := by
  unfold DotDims.lhsIdx
  rw [dif_pos (show (0 : Fin S256x64x64.rank) ∈ dot_S256x64x64_S256x64x64_S256x64x64_2_1_1_2_0_0.lhsBatch by decide)]
  rfl
/-- at the output's row, -/
theorem lhs_axis1 (i : S256x64x64.Idx) (q : dot_S256x64x64_S256x64x64_S256x64x64_2_1_1_2_0_0.contr.Idx) :
    (dot_S256x64x64_S256x64x64_S256x64x64_2_1_1_2_0_0.lhsIdx i q 1).val = (i 1).val := by
  unfold DotDims.lhsIdx
  rw [dif_neg (show ¬(1 : Fin S256x64x64.rank) ∈ dot_S256x64x64_S256x64x64_S256x64x64_2_1_1_2_0_0.lhsBatch by decide), dif_pos (show (1 : Fin S256x64x64.rank) ∈ dot_S256x64x64_S256x64x64_S256x64x64_2_1_1_2_0_0.lhsNonContracting by decide)]
  rfl
/-- and at the contraction index as its column. -/
theorem lhs_axis2 (i : S256x64x64.Idx) (q : dot_S256x64x64_S256x64x64_S256x64x64_2_1_1_2_0_0.contr.Idx) :
    (dot_S256x64x64_S256x64x64_S256x64x64_2_1_1_2_0_0.lhsIdx i q 2).val = (q ⟨0, by decide⟩).val :=
  dot_S256x64x64_S256x64x64_S256x64x64_2_1_1_2_0_0.lhsIdx_val_of_single rfl i q
/-- The right operand is read at the output's batch coordinate, -/
theorem rhs_axis0 (i : S256x64x64.Idx) (q : dot_S256x64x64_S256x64x64_S256x64x64_2_1_1_2_0_0.contr.Idx) :
    (dot_S256x64x64_S256x64x64_S256x64x64_2_1_1_2_0_0.rhsIdx i q 0).val = (i 0).val := by
  unfold DotDims.rhsIdx
  rw [dif_pos (show (0 : Fin S256x64x64.rank) ∈ dot_S256x64x64_S256x64x64_S256x64x64_2_1_1_2_0_0.rhsBatch by decide)]
  rfl
/-- at the contraction index as its row, -/
theorem rhs_axis1 (i : S256x64x64.Idx) (q : dot_S256x64x64_S256x64x64_S256x64x64_2_1_1_2_0_0.contr.Idx) :
    (dot_S256x64x64_S256x64x64_S256x64x64_2_1_1_2_0_0.rhsIdx i q 1).val = (q ⟨0, by decide⟩).val :=
  dot_S256x64x64_S256x64x64_S256x64x64_2_1_1_2_0_0.rhsIdx_val_of_single rfl i q
/-- and at the output's column. -/
theorem rhs_axis2 (i : S256x64x64.Idx) (q : dot_S256x64x64_S256x64x64_S256x64x64_2_1_1_2_0_0.contr.Idx) :
    (dot_S256x64x64_S256x64x64_S256x64x64_2_1_1_2_0_0.rhsIdx i q 2).val = (i 2).val := by
  unfold DotDims.rhsIdx
  rw [dif_neg (show ¬(2 : Fin S256x64x64.rank) ∈ dot_S256x64x64_S256x64x64_S256x64x64_2_1_1_2_0_0.rhsBatch by decide), dif_pos (show (2 : Fin S256x64x64.rank) ∈ dot_S256x64x64_S256x64x64_S256x64x64_2_1_1_2_0_0.rhsNonContracting by decide)]
  rfl

/-! ## The body's operations, one batch entry at a time -/

/-- Entry b of the tile's batched product into the zero accumulator is the matrix product of the entries b. -/
theorem tile_matmul (A B : FVec Ideal S256x64x64 .f32) (b : Fin 256) :
    tileEntry (matmul dot_S256x64x64_S256x64x64_S256x64x64_2_1_1_2_0_0 none A B (constant S256x64x64 .f32 0x00000000#32)) b
      = mmul (tileEntry A b) (tileEntry B b) := by
  funext i k
  show matmul dot_S256x64x64_S256x64x64_S256x64x64_2_1_1_2_0_0 none A B (constant S256x64x64 .f32 0x00000000#32) (ix3 b i k)
      = ∑ j : Fin 64, A (ix3 b i j) * B (ix3 b j k)
  simp only [matmul]
  rw [Ideal.matmul_constant_zero_apply, ← Equiv.sum_comp (ValueIdx.contrEquiv1 dot_S256x64x64_S256x64x64_S256x64x64_2_1_1_2_0_0 64 rfl rfl).symm]
  refine Finset.sum_congr rfl fun j _ => ?_
  have hk := ValueIdx.contrEquiv1_symm_val dot_S256x64x64_S256x64x64_S256x64x64_2_1_1_2_0_0 64 rfl rfl j
  have el : dot_S256x64x64_S256x64x64_S256x64x64_2_1_1_2_0_0.lhsIdx (ix3 b i k) ((ValueIdx.contrEquiv1 dot_S256x64x64_S256x64x64_S256x64x64_2_1_1_2_0_0 64 rfl rfl).symm j) = ix3 b i j := funext fun a => Fin.ext (by
    match a with
    | ⟨0, _⟩ => exact lhs_axis0 _ _
    | ⟨1, _⟩ => exact lhs_axis1 _ _
    | ⟨2, _⟩ => exact (lhs_axis2 _ _).trans hk)
  have er : dot_S256x64x64_S256x64x64_S256x64x64_2_1_1_2_0_0.rhsIdx (ix3 b i k) ((ValueIdx.contrEquiv1 dot_S256x64x64_S256x64x64_S256x64x64_2_1_1_2_0_0 64 rfl rfl).symm j) = ix3 b j k := funext fun a => Fin.ext (by
    match a with
    | ⟨0, _⟩ => exact rhs_axis0 _ _
    | ⟨1, _⟩ => exact (rhs_axis1 _ _).trans hk
    | ⟨2, _⟩ => exact rhs_axis2 _ _)
  rw [el, er]

/-- Entry b of a quotient by a splat constant is the entrywise quotient of entry b by that constant. -/
theorem tile_divf (A : FVec Ideal S256x64x64 .f32) (w : BitVec 32) (b : Fin 256) :
    tileEntry (divf A (broadcast S256x64x64 (Scalar.ofBits (F := Ideal) .f32 w))) b
      = mdiv (tileEntry A b) (Ideal.ofBits .f32 w) := rfl

/-- Entry b of a sum is the sum of the entries b. -/
theorem tile_addf (A B : FVec Ideal S256x64x64 .f32) (b : Fin 256) :
    tileEntry (addf A B) b = madd (tileEntry A b) (tileEntry B b) := rfl

/-- A cast of the tile to its own shape changes no entry. -/
theorem tile_shapeCast (A : FVec Ideal S256x64x64 .f32) (b : Fin 256) :
    tileEntry (shapeCast S256x64x64 A shapeCasts_S256x64x64_S256x64x64) b = tileEntry A b := by
  rw [shapeCast_self]

/-! ## The stored value -/

/-- THE TILE'S RESULT: entry b of what the body stores is the series of entry b of what it loaded. -/
theorem tile_payload (x0 : Vec Ideal S256x64x64 .f32) (b : Fin 256) :
    tileEntry (k0_pay1 (F := Ideal) x0) b = series (tileEntry x0 b) := by
  unfold k0_pay1
  simp only [tile_divf, tile_addf, tile_matmul, tile_shapeCast]
  rfl

/-- THE TILE AS A BLOCK OF THE WHOLE RESULT. If the tile's batch entry `b` is the array's batch entry `B`, then what
    the body stores at an index `y` of the tile with batch coordinate `b` is `G` of the array at the index `j` with
    batch coordinate `B` and the same row and column. Stated over plain indices of the two literal shapes with the
    coordinates as hypotheses, so that it can be used at a window's own index types. -/
theorem tile_at (x0 : Vec Ideal S256x64x64 .f32) (A : FVec Ideal S8192x64x64 .f32) (y : S256x64x64.Idx) (j : S8192x64x64.Idx)
    (b : Fin 256) (B : Fin 8192) (hy0 : (y 0).val = b.val) (hj0 : (j 0).val = B.val)
    (h1 : (j 1).val = (y 1).val) (h2 : (j 2).val = (y 2).val)
    (hx : ∀ i' k' : Fin 64, x0 (ix3 b i' k') = A (ix3 B i' k')) :
    k0_pay1 (F := Ideal) x0 y = G A j := by
  obtain ⟨b', i, k, rfl⟩ : ∃ (b' : Fin 256) (i k : Fin 64), y = ix3 b' i k := ⟨y 0, y 1, y 2, eq_ix3 y⟩
  obtain ⟨B', I, K, rfl⟩ : ∃ (B' : Fin 8192) (I K : Fin 64), j = ix3 B' I K := ⟨j 0, j 1, j 2, eq_ix3 j⟩
  obtain rfl : b' = b := Fin.ext hy0
  obtain rfl : B' = B := Fin.ext hj0
  obtain rfl : I = i := Fin.ext h1
  obtain rfl : K = k := Fin.ext h2
  show tileEntry (k0_pay1 (F := Ideal) x0) b' I K = series (entry A B') I K
  rw [tile_payload]
  have e : tileEntry x0 b' = entry A B' := funext fun i' => funext fun k' => hx i' k'
  rw [e]

end Cert.KernelIdeal.TileValue

end
-- ==== Proof.ArrayValue.lean ====
/-
  From tiles to the array. The kernel's grid has 32 points; point t stages tile t of the batch axis (batch entries
  256·t … 256·t + 255, every row and column) of the reshaped input, and writes tile t of the output array back. By the
  tile's result (`TileValue.tile_at`) what point t writes back is tile t of `G` of the reshaped input; the 32 tiles cover
  the array (the tile that holds batch entry B is B / 256); so the output array ends at `G` of the reshaped input. The
  host operation before the region is the reshape [8192, 4096] → [8192, 64, 64] of the argument, and the one after it
  the reshape back of the output array: the kernel's result is the reshape back of `G` of the reshaped argument.
-/
import proofs.«166891_j52810917872258_1_alg».proof.Proof.Gen.KernelIdeal.Frame
import proofs.«166891_j52810917872258_1_alg».proof.Proof.TileValue
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.PowerSeries Cert.KernelIdeal.TileValue

variable (m : (ℓ : Loc nD τ sig) → Buf (Elt Ideal) ℓ) (ρ : Dev nD → PrngReg)

/-- The reshaped input as the region finds it: the array window 0 stages. -/
abbrev inArr (c : Dev nD) : FVec Ideal S8192x64x64 .f32 := V m c main_call0_v0

theorem origin : (![0, 0, 0] : Fin 3 → Nat) = fun _ => 0 := funext fun a => by fin_cases a <;> rfl

/-- Both windows at point t sit at block (t, 0, 0): the grid walks the batch axis only. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input tile at point t, read at batch entry b, row i, column k, is the array at batch entry 256·t + b. -/
theorem in_tile (c : Dev nD) (t : Fin cfg0.N) (b : Fin 256) (B : Fin 8192) (hB : B.val = t.val * 256 + b.val) (i k : Fin 64) :
    iblk m c 0 t (ix3 b i k) = inArr m c (ix3 B i k) := by
  obtain ⟨e0, e1, e2, -, -, -⟩ := block_index t
  show V m c main_call0_v0 (((cfg0.win 0).blk t).view.emb (ix3 b i k)) = V m c main_call0_v0 (ix3 B i k)
  refine congrArg (V m c main_call0_v0) (funext fun a => Fin.ext ?_)
  match a with
  | ⟨0, _⟩ => show win0_0.index t (0 : Fin 3) * 256 + 1 * b.val = B.val; omega
  | ⟨1, _⟩ => show win0_0.index t (1 : Fin 3) * 64 + 1 * i.val = i.val; omega
  | ⟨2, _⟩ => show win0_0.index t (2 : Fin 3) * 64 + 1 * k.val = k.val; omega

/-- WHAT POINT t WRITES BACK is tile t of `G` of the reshaped input. -/
theorem flushed_eq (c : Dev nD) (t : Fin cfg0.N) :
    (dats m 0 c).flushed 1 t = ((cfg0.win 1).blk t).view.read (Elt Ideal) (G (inArr m c)) := by
  show (cfg0.win 1).cut (grid0.coords t) ((dats m 0 c).after 1 t) = _
  rw [after0_1]
  unfold out0_1
  rw [View.canon_unit_zero origin]
  simp only [View.ld_unit_zero (S := S256x64x64) origin]
  obtain ⟨-, -, -, f0, f1, f2⟩ := block_index t
  funext y
  show k0_pay1 (F := Ideal) (iblk m c 0 t) y = G (inArr m c) (((cfg0.win 1).blk t).view.emb y)
  have hy0 : (y 0).val < 256 := (y 0).isLt
  have ht : t.val < 32 := lt_of_lt_of_eq t.isLt N_0
  refine tile_at (iblk m c 0 t) (inArr m c) y (((cfg0.win 1).blk t).view.emb y) ⟨(y 0).val, hy0⟩ ⟨t.val * 256 + (y 0).val, by omega⟩
    rfl ?_ ?_ ?_ (fun i' k' => in_tile m c t ⟨(y 0).val, hy0⟩ ⟨t.val * 256 + (y 0).val, by omega⟩ rfl i' k')
  · show win0_1.index t (0 : Fin 3) * 256 + 1 * (y 0).val = t.val * 256 + (y 0).val; omega
  · show win0_1.index t (1 : Fin 3) * 64 + 1 * (y 1).val = (y 1).val; omega
  · show win0_1.index t (2 : Fin 3) * 64 + 1 * (y 2).val = (y 2).val; omega

/-- An index of the output array is in point t's tile iff each coordinate is in the tile's range on its axis. -/
theorem mem_tile (t : Fin cfg0.N) (i : S8192x64x64.Idx) :
    i ∈ ((cfg0.win 1).blk t).view.set ↔ ∀ a : Fin 3, win0_1.index t a * S256x64x64.size a ≤ (i a).val ∧ (i a).val < win0_1.index t a * S256x64x64.size a + S256x64x64.size a := by
  show i ∈ ((View.whole main_call0_v1).slice (win0_1.rect t)).set ↔ _
  rw [View.set_slice_whole, Rect.mem_set_unit]
  exact Iff.rfl

/-- THE TILES COVER THE ARRAY: batch entry B lies in tile B / 256. -/
theorem covered (i : S8192x64x64.Idx) : ∃ t : Fin cfg0.N, (cfg0.win 1).flush t = true ∧ i ∈ ((cfg0.win 1).blk t).view.set := by
  have hi0 : (i 0).val < 8192 := (i 0).isLt
  have hi1 : (i 1).val < 64 := (i 1).isLt
  have hi2 : (i 2).val < 64 := (i 2).isLt
  obtain ⟨t, ht⟩ : ∃ t : Fin cfg0.N, t.val = (i 0).val / 256 :=
    ⟨⟨(i 0).val / 256, by rw [show cfg0.N = 32 from N_0]; omega⟩, rfl⟩
  obtain ⟨-, -, -, f0, f1, f2⟩ := block_index t
  refine ⟨t, flush0_1 t, ?_⟩
  rw [mem_tile]
  intro a
  match a with
  | ⟨0, _⟩ => show win0_1.index t (0 : Fin 3) * 256 ≤ (i 0).val ∧ (i 0).val < win0_1.index t (0 : Fin 3) * 256 + 256; omega
  | ⟨1, _⟩ => show win0_1.index t (1 : Fin 3) * 64 ≤ (i 1).val ∧ (i 1).val < win0_1.index t (1 : Fin 3) * 64 + 64; omega
  | ⟨2, _⟩ => show win0_1.index t (2 : Fin 3) * 64 ≤ (i 2).val ∧ (i 2).val < win0_1.index t (2 : Fin 3) * 64 + 64; omega

/-- THE OUTPUT ARRAY after the region is `G` of the reshaped input. -/
theorem out_array (c : Dev nD) : (dats m 0 c).arrAt 1 cfg0.N = G (inArr m c) :=
  (dats m 0 c).arrAt_eq_of_cover 1 (G (inArr m c)) (fun t _ => flushed_eq m c t) covered

/-- The host operation before the region: the array window 0 stages is the argument reshaped to [8192, 64, 64]. -/
theorem inArr_eq (c : Dev nD) :
    inArr m c = shapeCast S8192x64x64 (m ((c : Thread nD τ).loc main_arg0)) shapeCasts_S8192x4096_S8192x64x64 := by
  show StableHlo.after hostOps0 (fun b => m (c, b)) (Proc.devRef .tc main_call0_v0) = _
  after_results
  rfl

/-- The host operation after the region: the result is the output array reshaped back to [8192, 4096]. -/
theorem tail_eq (c : Dev nD) :
    Pipeline.afterTail₀ cfgs (dats m) 0 (V0 m) [hostOps1] c main_v0
      = shapeCast S8192x4096 ((dats m 0 c).arrAt 1 cfg0.N) shapeCasts_S8192x64x64_S8192x4096 := by
  unfold Pipeline.afterTail₀
  show StableHlo.after hostOps1 _ (Proc.devRef .tc main_v0) = _
  after_results
  exact congrArg (fun A => shapeCast S8192x4096 A shapeCasts_S8192x64x64_S8192x4096)
    (Pipeline.withArrays_arr spec0 launch0.win.arr_inj c (V0 m c) (fun w => (dats m 0 c).arrAt w cfg0.N) 1)

/-- The kernel's whole result as one function of its argument: reshape to [8192, 64, 64], `G`, reshape back. -/
def result (x : FVec Ideal S8192x4096 .f32) : FVec Ideal S8192x4096 .f32 :=
  shapeCast S8192x4096 (G (shapeCast S8192x64x64 x shapeCasts_S8192x4096_S8192x64x64)) shapeCasts_S8192x64x64_S8192x4096

/-- THE RUN, READ: every weakly fair execution ends with the result buffer at `result` of the argument and the
    argument unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c =>
      ⟨((h c).2 main_v0 (Pipeline.mem_restRefs_of main_v0 (by decide) (by decide))).trans
          ((tail_eq m c).trans (by rw [out_array, inArr_eq]; rfl)),
        ((h c).2 main_arg0 (Pipeline.mem_restRefs_of main_arg0 (by decide) (by decide))).trans (W_main_arg0 m (dats m) c)⟩)
    (run_main m ρ)

end Cert.KernelIdeal.ArrayValue

end
-- ==== Proof.RefValue.lean ====
/-
  What the reference computes, before its final reshape: the array `Cert.PowerSeries.G` of the reshaped input.
  Its six batched products contract the second matrix axis of the left operand with the first of the right at equal
  batch coordinate, so entry b of each is the matrix product of the entries b; its quotients divide by a scalar
  constant broadcast to the whole array and its sums are entrywise. Entry by entry that is the series.
-/
import proofs.«166891_j52810917872258_1_alg».proof.Proof.Gen.ReferenceIdeal.Read
import proofs.«166891_j52810917872258_1_alg».proof.Proof.Series
import Idealize.ShloMosaic.Lib.Pipeline.Value
import Idealize.ShloMosaic.Lib.ValueIdx
import Idealize.ShloMosaic.PureOps.Ideal.Laws

noncomputable section

open scoped BigOperators

namespace Cert.ReferenceIdeal.SeriesValue

open Cert.ReferenceIdeal Cert.ReferenceIdeal.Gen Cert.ReferenceIdeal.Read Idealize.ShloMosaic Idealize.ShloMosaic.TcCoe
open Idealize.ShloMosaic.ValueIdx Cert.PowerSeries

/-! ## The reference's operations, one batch entry at a time -/

/-- Entry b of the host's batched product is the matrix product of the entries b. -/
theorem ref_dot (A B : FVec Ideal S8192x64x64 .f32) (b : Fin 8192) :
    entry (Host.dotGeneral dot_S8192x64x64_S8192x64x64_S8192x64x64_2_1_1_2_0_0 none A B) b = mmul (entry A b) (entry B b) := by
  funext i k
  show Host.dotGeneral dot_S8192x64x64_S8192x64x64_S8192x64x64_2_1_1_2_0_0 none A B (ix3 b i k) = ∑ j : Fin 64, A (ix3 b i j) * B (ix3 b j k)
  simp only [Host.dotGeneral]
  rw [Ideal.dotGeneral_apply, ← Equiv.sum_comp (ValueIdx.contrEquiv1 dot_S8192x64x64_S8192x64x64_S8192x64x64_2_1_1_2_0_0 64 rfl rfl).symm]
  refine Finset.sum_congr rfl fun j _ => ?_
  have hk := ValueIdx.contrEquiv1_symm_val dot_S8192x64x64_S8192x64x64_S8192x64x64_2_1_1_2_0_0 64 rfl rfl j
  have el : dot_S8192x64x64_S8192x64x64_S8192x64x64_2_1_1_2_0_0.lhsIdx (ix3 b i k) ((ValueIdx.contrEquiv1 dot_S8192x64x64_S8192x64x64_S8192x64x64_2_1_1_2_0_0 64 rfl rfl).symm j) = ix3 b i j := funext fun a => Fin.ext (by
    match a with
    | ⟨0, _⟩ => exact lhs_main_v1_0 _ _
    | ⟨1, _⟩ => exact lhs_main_v1_1 _ _
    | ⟨2, _⟩ => exact (lhs_main_v1_2 _ _).trans hk)
  have er : dot_S8192x64x64_S8192x64x64_S8192x64x64_2_1_1_2_0_0.rhsIdx (ix3 b i k) ((ValueIdx.contrEquiv1 dot_S8192x64x64_S8192x64x64_S8192x64x64_2_1_1_2_0_0 64 rfl rfl).symm j) = ix3 b j k := funext fun a => Fin.ext (by
    match a with
    | ⟨0, _⟩ => exact rhs_main_v1_0 _ _
    | ⟨1, _⟩ => exact (rhs_main_v1_1 _ _).trans hk
    | ⟨2, _⟩ => exact rhs_main_v1_2 _ _)
  rw [el, er]

/-- Entry b of a quotient by a broadcast scalar constant is the entrywise quotient of entry b by that constant. -/
theorem ref_divf (A : FVec Ideal S8192x64x64 .f32) (w : BitVec 32) (b : Fin 8192) :
    entry (Host.divf A (broadcastInDim S8192x64x64 ![] bcast_S_S8192x64x64 (constant (F := Ideal) S_ .f32 w))) b
      = mdiv (entry A b) (Ideal.ofBits .f32 w) := by
  funext i k
  show FloatOps.hostDivf (A (ix3 b i k)) (broadcastInDim S8192x64x64 ![] bcast_S_S8192x64x64 (constant (F := Ideal) S_ .f32 w) (ix3 b i k))
      = Ideal.div (A (ix3 b i k)) (Ideal.ofBits .f32 w)
  rw [broadcastInDim_apply _ bcast_S_S8192x64x64 (constant (F := Ideal) S_ .f32 w) (ix3 b i k) (fun a => a.elim0) (fun a => a.elim0)]
  rfl

/-- Entry b of a sum is the sum of the entries b. -/
theorem ref_addf (A B : FVec Ideal S8192x64x64 .f32) (b : Fin 8192) :
    entry (addf A B) b = madd (entry A b) (entry B b) := rfl

/-! ## The value before the final reshape -/

/-- THE REFERENCE'S RESULT before its last reshape is `G` of the reshaped input. -/
theorem ref_value (x0 : (⟨S8192x4096, .f32⟩ : BufTy).Contents (Elt Ideal)) :
    val_main_v26 (F := Ideal) x0 = G (val_main_v0 (F := Ideal) x0) := by
  refine ext_entry _ _ fun b => ?_
  rw [entry_G]
  unfold val_main_v26 val_main_v25 val_main_cst_5 val_main_v24 val_main_v23 val_main_v22 val_main_cst_4 val_main_v21
    val_main_v20 val_main_v19 val_main_v18 val_main_cst_3 val_main_v17 val_main_v16 val_main_v15 val_main_v14 val_main_cst_2
    val_main_v13 val_main_v12 val_main_v11 val_main_v10 val_main_cst_1 val_main_v9 val_main_v8 val_main_v7 val_main_v6
    val_main_cst_0 val_main_v5 val_main_v4 val_main_v3 val_main_v2 val_main_cst val_main_v1
  generalize val_main_v0 (F := Ideal) x0 = X
  repeat (first | rw [ref_divf] | rw [ref_addf] | rw [ref_dot])
  rfl

end Cert.ReferenceIdeal.SeriesValue

end
-- ==== Proof.lean ====
/-
  The certificate of a batched matrix power series.

  The argument is a batch of 8192 matrices of size 64×64, laid out as [8192, 4096]. Both programs reshape it to
  [8192, 64, 64], compute for every matrix X the series
      (X + P₁ + P₂ + P₃ + P₄ + P₅ + P₆) / c₇,   P₁ = (X·X) / c₁,   Pₖ₊₁ = (Pₖ·X) / cₖ₊₁,
  with the same seven float constants, the same left-nested sum and the same operand order in every product, and
  reshape the result back. The reference does it on the whole array with batched products; the kernel walks the batch
  axis in 32 tiles of 256 matrices and computes the same operations on each tile.

  Over the extended reals the two agree with no algebraic law at all: a batched product never mixes batch entries
  (entry b of a product is the matrix product of the entries b), quotients and sums are entrywise, and the kernel's
  products accumulate into the zero splat, which adds nothing. So entry by entry both sides are literally the same
  expression (`Cert.PowerSeries.series`), and the precondition is never opened.

    * Proof/Series.lean       the series of one matrix, and the whole-array function `G`;
    * Proof/TileValue.lean    what the kernel's body stores on one tile is the series of each of its entries;
    * Proof/ArrayValue.lean   the 32 tiles cover the array, so the output array is `G` of the reshaped argument, and the
                              host reshapes before and after the region give the kernel's result;
    * Proof/RefValue.lean     the reference's value before its last reshape is `G` of the reshaped argument.

  The three frames are the generated frame runs (the reference's is its generated run with the result dropped); the
  idealization rewrote nothing, so `preserves` is trivial.
-/
import proofs.«166891_j52810917872258_1_alg».proof.Defs
import proofs.«166891_j52810917872258_1_alg».proof.Proof.Gen.Kernel
import proofs.«166891_j52810917872258_1_alg».proof.Proof.Gen.Kernel.Frame
import proofs.«166891_j52810917872258_1_alg».proof.Proof.Gen.KernelIdeal
import proofs.«166891_j52810917872258_1_alg».proof.Proof.Gen.KernelIdeal.Frame
import proofs.«166891_j52810917872258_1_alg».proof.Proof.Gen.ReferenceIdeal
import proofs.«166891_j52810917872258_1_alg».proof.Proof.Gen.Pre_finite_inputs
import proofs.«166891_j52810917872258_1_alg».proof.Proof.Gen.ReferenceIdeal.Run
import proofs.«166891_j52810917872258_1_alg».proof.Proof.Gen.ReferenceIdeal.Read
import proofs.«166891_j52810917872258_1_alg».proof.Proof.ArrayValue
import proofs.«166891_j52810917872258_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its argument: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its argument: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the argument, the kernel ends at the reshape back of `G` of the reshaped argument
    (`ArrayValue.run`) and the reference at the reshape back of its value before the last reshape, which is the same `G`
    of the same reshaped argument (`SeriesValue.ref_value`). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, hagree c]
  unfold Cert.ReferenceIdeal.Read.val_main_v27
  rw [Cert.ReferenceIdeal.SeriesValue.ref_value]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
